-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128x6 : Shape := ⟨3, ![16384, 128, 6]⟩
abbrev S_ : Shape := ⟨0, ![]⟩

class Facts : Prop where
  bcast_S_S16384x128x6 : S_.BroadcastsInDim S16384x128x6 (![] : Fin 0 → Fin S16384x128x6.rank)
  reducesTo_S16384x128x6_S_d0_1_2 : S16384x128x6.ReducesTo [0, 1, 2] S_
  h_S_ : 0 < S_.numel

variable [Facts]

def fn {F : FTy → Type} [FloatOps F] (main_arg0 : FVec F S16384x128x6 .f32) (main_arg1 : FVec F S16384x128x6 .f32) : IVec S_ 1 :=
  let main_v0 : FVec F S16384x128x6 .f32 := Host.absf main_arg0
  let main_cst : FVec F S_ .f32 := constant S_ .f32 0x7F800000#32
  let main_v1 : FVec F S16384x128x6 .f32 := broadcastInDim S16384x128x6 ![] bcast_S_S16384x128x6 main_cst
  let main_v2 : IVec S16384x128x6 1 := cmpf .olt main_v0 main_v1
  let main_c : IVec S_ 1 := constantI S_ 1 1#1
  let main_v3 : IVec S_ 1 := (fun x v => Host.reduce IntOp.andi x v reducesTo_S16384x128x6_S_d0_1_2 h_S_) main_v2 main_c
  let main_v4 : FVec F S16384x128x6 .f32 := Host.absf main_arg1
  let main_cst_0 : FVec F S_ .f32 := constant S_ .f32 0x7F800000#32
  let main_v5 : FVec F S16384x128x6 .f32 := broadcastInDim S16384x128x6 ![] bcast_S_S16384x128x6 main_cst_0
  let main_v6 : IVec S16384x128x6 1 := cmpf .olt main_v4 main_v5
  let main_c_1 : IVec S_ 1 := constantI S_ 1 1#1
  let main_v7 : IVec S_ 1 := (fun x v => Host.reduce IntOp.andi x v reducesTo_S16384x128x6_S_d0_1_2 h_S_) main_v6 main_c_1
  let main_v8 : IVec S_ 1 := andi main_v3 main_v7
  main_v8
-- ==== Kernel.lean ====
abbrev S16384x128x6 : Shape := ⟨3, ![16384, 128, 6]⟩
abbrev S16384x768 : Shape := ⟨2, ![16384, 768]⟩
abbrev S16x1x768 : Shape := ⟨3, ![16, 1, 768]⟩
abbrev S1024x768 : Shape := ⟨2, ![1024, 768]⟩
abbrev S1x1x768 : Shape := ⟨3, ![1, 1, 768]⟩
abbrev S768 : Shape := ⟨1, ![768]⟩
abbrev S1x768 : Shape := ⟨2, ![1, 768]⟩
abbrev S16x768 : Shape := ⟨2, ![16, 768]⟩
abbrev S_ : Shape := ⟨0, ![]⟩

abbrev nBuf : Space → Nat
  | .hbm => 57
  | .vmem => 8
  | .smem => 0
  | _ => 0

abbrev bufTy : (tb : Table) → Fin (tcTables nBuf tb) → BufTy
  | .hbm, ⟨0, _⟩ => ⟨S16384x128x6, .f32⟩
  | .hbm, ⟨1, _⟩ => ⟨S16384x128x6, .f32⟩
  | .hbm, ⟨2, _⟩ => ⟨S16384x768, .f32⟩
  | .hbm, ⟨3, _⟩ => ⟨S16384x768, .f32⟩
  | .hbm, ⟨4, _⟩ => ⟨S16x1x768, .f32⟩
  | .hbm, ⟨5, _⟩ => ⟨S16x1x768, .f32⟩
  | .hbm, ⟨6, _⟩ => ⟨S16x768, .f32⟩
  | .hbm, ⟨7, _⟩ => ⟨S_, .f32⟩
  | .hbm, ⟨8, _⟩ => ⟨S768, .f32⟩
  | .hbm, ⟨9, _⟩ => ⟨S16x768, .f32⟩
  | .hbm, ⟨10, _⟩ => ⟨S_, .f32⟩
  | .hbm, ⟨11, _⟩ => ⟨S768, .f32⟩
  | .hbm, ⟨12, _⟩ => ⟨S768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S768, .i32⟩
  | .hbm, ⟨20, _⟩ => ⟨S768, .i32⟩
  | .hbm, ⟨21, _⟩ => ⟨S_, .i32⟩
  | .hbm, ⟨22, _⟩ => ⟨S768, .i32⟩
  | .hbm, ⟨23, _⟩ => ⟨S768, .i1⟩
  | .hbm, ⟨24, _⟩ => ⟨S_, .i32⟩
  | .hbm, ⟨25, _⟩ => ⟨S768, .i32⟩
  | .hbm, ⟨26, _⟩ => ⟨S768, .i1⟩
  | .hbm, ⟨27, _⟩ => ⟨S_, .i32⟩
  | .hbm, ⟨28, _⟩ => ⟨S_, .i1⟩
  | .hbm, ⟨29, _⟩ => ⟨S768, .i1⟩
  | .hbm, ⟨30, _⟩ => ⟨S768, .i1⟩
  | .hbm, ⟨31, _⟩ => ⟨S768, .i1⟩
  | .hbm, ⟨32, _⟩ => ⟨S768, .i32⟩
  | .hbm, ⟨33, _⟩ => ⟨S768, .i32⟩
  | .hbm, ⟨34, _⟩ => ⟨S768, .i32⟩
  | .hbm, ⟨35, _⟩ => ⟨S_, .i32⟩
  | .hbm, ⟨36, _⟩ => ⟨S768, .i32⟩
  | .hbm, ⟨37, _⟩ => ⟨S768, .i1⟩
  | .hbm, ⟨38, _⟩ => ⟨S_, .f32⟩
  | .hbm, ⟨39, _⟩ => ⟨S768, .f32⟩
  | .hbm, ⟨40, _⟩ => ⟨S768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S768, .f32⟩
  | .hbm, ⟨45, _⟩ => ⟨S768, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x1x768, .f32⟩
  | .local _ .vmem, ⟨5, _⟩ => ⟨S1x1x768, .f32⟩
  | .local _ .vmem, ⟨6, _⟩ => ⟨S1x1x768, .f32⟩
  | .local _ .vmem, ⟨7, _⟩ => ⟨S1x1x768, .f32⟩
  | _, _ => ⟨S16384x128x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_call1_v0 : Ref sig .tc := ⟨.hbm, 39, rfl⟩
abbrev main_v11 : Ref sig .tc := ⟨.hbm, 40, rfl⟩
abbrev main_cst_3 : Ref sig .tc := ⟨.hbm, 41, rfl⟩
abbrev main_v12 : Ref sig .tc := ⟨.hbm, 42, rfl⟩
abbrev main_cst_4 : Ref sig .tc := ⟨.hbm, 43, rfl⟩
abbrev main_call2_v0 : Ref sig .tc := ⟨.hbm, 44, rfl⟩
abbrev main_v13 : Ref sig .tc := ⟨.hbm, 45, rfl⟩
abbrev main_cst_5 : Ref sig .tc := ⟨.hbm, 46, rfl⟩
abbrev main_v14 : Ref sig .tc := ⟨.hbm, 47, rfl⟩
abbrev main_cst_6 : Ref sig .tc := ⟨.hbm, 48, rfl⟩
abbrev main_v15 : Ref sig .tc := ⟨.hbm, 49, rfl⟩
abbrev main_cst_7 : Ref sig .tc := ⟨.hbm, 50, rfl⟩
abbrev main_v16 : Ref sig .tc := ⟨.hbm, 51, rfl⟩
abbrev main_cst_8 : Ref sig .tc := ⟨.hbm, 52, rfl⟩
abbrev main_v17 : Ref sig .tc := ⟨.hbm, 53, rfl⟩
abbrev main_cst_9 : Ref sig .tc := ⟨.hbm, 54, rfl⟩
abbrev main_v18 : Ref sig .tc := ⟨.hbm, 55, rfl⟩
abbrev main_v19 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x128x6_S16384x768 : S16384x128x6.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S768 : S1024x768.Reduces [0] S768
  shapeCasts_S768_S1x768 : S768.ShapeCasts S1x768
  shapeCasts_S1x768_S1x1x768 : S1x768.ShapeCasts S1x1x768
  inb_S1x1x768_S1x1x768_0_0_0 : ∀ a, (![0, 0, 0] : Fin 3 → Nat) a + S1x1x768.size a ≤ S1x1x768.size a
  h_S1x1x768 : 0 < S1x1x768.numel
  shapeCasts_S16x1x768_S16x768 : S16x1x768.ShapeCasts S16x768
  reducesTo_S16x768_S768_d0 : S16x768.ReducesTo [0] S768
  h_S_ : 0 < S_.numel
  bcast_S_S768 : S_.BroadcastsInDim S768 (![] : Fin 0 → Fin S768.rank)
  reducesTo_S768_S_d0 : S768.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S16x1x768.size a
  hwx0_2 : ∀ i : grid0.Coords, EltTy.bits .f32 = 32 ∨ (Rect.block (s := S16x1x768) S1x1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768.size a ≤ S16x1x768.size a
  hwx0_3 : ∀ i : grid0.Coords, EltTy.bits .f32 = 32 ∨ (Rect.block (s := S16x1x768) S1x1x768.size (cc0_transform_3 i) (hinb0_3 i)).WholeWords (EltTy.packing .f32)

variable [Facts₀]

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128x6 : Shape := ⟨3, ![16384, 128, 6]⟩
abbrev S16384x128x3 : Shape := ⟨3, ![16384, 128, 3]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x128x6, .f32⟩
  | .hbm, ⟨1, _⟩ => ⟨S16384x128x6, .f32⟩
  | .hbm, ⟨2, _⟩ => ⟨S16384x128x3, .f32⟩
  | .hbm, ⟨3, _⟩ => ⟨S_, .f32⟩
  | .hbm, ⟨4, _⟩ => ⟨S16384x128x3, .f32⟩
  | .hbm, ⟨5, _⟩ => ⟨S16384x128x3, .i1⟩
  | .hbm, ⟨6, _⟩ => ⟨S_, .f32⟩
  | .hbm, ⟨7, _⟩ => ⟨S16384x128x3, .f32⟩
  | .hbm, ⟨8, _⟩ => ⟨S16384x128x3, .f32⟩
  | .hbm, ⟨9, _⟩ => ⟨S_, .f32⟩
  | .hbm, ⟨10, _⟩ => ⟨S_, .f32⟩
  | .hbm, ⟨11, _⟩ => ⟨S16384x128x3, .f32⟩
  | .hbm, ⟨12, _⟩ => ⟨S16384x128x3, .i1⟩
  | .hbm, ⟨13, _⟩ => ⟨S_, .f32⟩
  | .hbm, ⟨14, _⟩ => ⟨S16384x128x3, .f32⟩
  | .hbm, ⟨15, _⟩ => ⟨S16384x128x3, .f32⟩
  | .hbm, ⟨16, _⟩ => ⟨S16384x128x3, .f32⟩
  | .hbm, ⟨17, _⟩ => ⟨S16384x128x3, .f32⟩
  | .hbm, ⟨18, _⟩ => ⟨S16384x128x3, .f32⟩
  | .hbm, ⟨19, _⟩ => ⟨S_, .f32⟩
  | .hbm, ⟨20, _⟩ => ⟨S16384x128x3, .f32⟩
  | .hbm, ⟨21, _⟩ => ⟨S16384x128x3, .i1⟩
  | .hbm, ⟨22, _⟩ => ⟨S_, .f32⟩
  | .hbm, ⟨23, _⟩ => ⟨S16384x128x3, .f32⟩
  | .hbm, ⟨24, _⟩ => ⟨S16384x128x3, .f32⟩
  | .hbm, ⟨25, _⟩ => ⟨S_, .f32⟩
  | .hbm, ⟨26, _⟩ => ⟨S_, .f32⟩
  | .hbm, ⟨27, _⟩ => ⟨S16384x128x3, .f32⟩
  | .hbm, ⟨28, _⟩ => ⟨S16384x128x3, .i1⟩
  | .hbm, ⟨29, _⟩ => ⟨S_, .f32⟩
  | .hbm, ⟨30, _⟩ => ⟨S16384x128x3, .f32⟩
  | .hbm, ⟨31, _⟩ => ⟨S16384x128x3, .f32⟩
  | .hbm, ⟨32, _⟩ => ⟨S16384x128x3, .f32⟩
  | .hbm, ⟨33, _⟩ => ⟨S16384x128x3, .f32⟩
  | .hbm, ⟨34, _⟩ => ⟨S16384x128x3, .f32⟩
  | .hbm, ⟨35, _⟩ => ⟨S16384x128x3, .f32⟩
  | .hbm, ⟨36, _⟩ => ⟨S16384x128x3, .f32⟩
  | .hbm, ⟨37, _⟩ => ⟨S16384x128x3, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384x128x3, .f32⟩
  | .hbm, ⟨45, _⟩ => ⟨S16384x128x3, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x128x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_cst_8 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S16384x128x6_S16384x128x3_0_0_3 : S16384x128x6.Slices ![0, 0, 3] S16384x128x3
  bcast_S_S16384x128x3 : S_.BroadcastsInDim S16384x128x3 (![] : Fin 0 → Fin S16384x128x3.rank)
  slices_S16384x128x6_S16384x128x3_0_0_0 : S16384x128x6.Slices ![0, 0, 0] S16384x128x3
  reducesTo_S16384x128x3_S_d0_1_2 : S16384x128x3.ReducesTo [0, 1, 2] S_
  h_S_ : 0 < S_.numel

variable [Facts₀]

class Facts : Prop extends Facts₀ where

variable [Facts]
-- ==== Proof.Mask.lean ====
/-
  Which of the 768 lanes of a flattened (step, channel) row carry a translation channel.

  Lane c holds channel c mod 6 of step c div 6. The program computes the lane's channel as the remainder of the lane
  number by 6 in 32-bit two's-complement words, in the form a floored remainder is lowered to: the truncated remainder,
  corrected by adding the divisor when the remainder is nonzero and its sign differs from the divisor's (and a divisor of
  zero replaced by one). On lane numbers below 768 no correction fires, and the comparison with 3 is the test
  c mod 6 < 3.
-/
import Idealize.ShloMosaic.PureOps
import Idealize.ShloMosaic.Lib.ValueIdx
import Idealize.ShloMosaic.Lib.IdealHost

noncomputable section

namespace Cert.Mask

open Idealize.ShloMosaic Idealize.ShloMosaic.ValueIdx

/-- The 768 lanes. -/
abbrev Lanes : Shape := ⟨1, ![768]⟩
/-- The scalar shape. -/
abbrev Sc : Shape := ⟨0, ![]⟩

variable (hb : Sc.BroadcastsInDim Lanes (![] : Fin 0 → Fin Lanes.rank))

/-- The divisor as the lowered remainder uses it: 6, or 1 if it were 0. -/
def divisor : IVec Sc 32 :=
  select (cmpi .eq (id (constantI Sc 32 6#32)) (constantI Sc 32 0#32)) (constantI Sc 32 1#32) (id (constantI Sc 32 6#32))

/-- The truncated remainder of each lane number by the divisor. -/
def truncRem : IVec Lanes 32 :=
  Host.remsi (iotaInDim Lanes 32 0) (broadcastInDim Lanes ![] hb divisor)

/-- Each lane's channel: the floored remainder of the lane number by 6. -/
def channel : IVec Lanes 32 :=
  select
    (andi
      (cmpi .ne (cmpi .slt (truncRem hb) (broadcastInDim Lanes ![] hb (constantI Sc 32 0#32)))
        (broadcastInDim Lanes ![] hb (cmpi .slt divisor (constantI Sc 32 0#32))))
      (cmpi .ne (truncRem hb) (broadcastInDim Lanes ![] hb (constantI Sc 32 0#32))))
    (addi (truncRem hb) (broadcastInDim Lanes ![] hb divisor))
    (truncRem hb)

/-- The lanes that carry a translation channel (channel below 3). -/
def transLane : IVec Lanes 1 :=
  cmpi .slt (channel hb) (broadcastInDim Lanes ![] hb (constantI Sc 32 3#32))

/-- Lane `c` carries a translation channel exactly when `c mod 6 < 3`. -/
theorem transLane_apply (c : Fin 768) : transLane hb (ix1 c) = if c.val % 6 < 3 then 1#1 else 0#1 := by
  -- Every operation is lanewise and the scalars are read the same at every lane, so lane c is one closed word
  -- expression in the word of c; the 768 cases are then checked one by one.
  have key : ∀ l : Fin 768,
      (let x := BitVec.ofNat 32 l.val
       let d : BitVec 32 := Scalar.select (IntOp.cmpi .eq 6#32 0#32) 1#32 6#32
       let r := IntOp.remsi .host x d
       IntOp.cmpi .slt
         (Scalar.select
           (IntOp.andi (IntOp.cmpi .ne (IntOp.cmpi .slt r 0#32) (IntOp.cmpi .slt d 0#32)) (IntOp.cmpi .ne r 0#32))
           (IntOp.addi r d) r)
         3#32)
      = if l.val % 6 < 3 then 1#1 else 0#1 := by decide +kernel
  exact key c

end Cert.Mask

end
-- ==== Proof.Tail.lean ====
/-
  The host lines after the region, as functions of the region's two output arrays.

  The region leaves two arrays of 16 blocks by 768 lanes (each block a row of per-lane partial sums). The lines after it
  drop the unit axis, add the 16 rows lane by lane, keep the first array's sums on the translation lanes and the second's
  on the rotation lanes (zero elsewhere), add over the lanes, divide each total by the number of summands and scale it by
  its weight; the first result is the sum of the two scaled terms.
-/
import proofs.«402585_j8753143349669_3_alg».proof.Proof.Gen.KernelIdeal.Frame
import proofs.«402585_j8753143349669_3_alg».proof.Proof.Mask
import Idealize.ShloMosaic.Lib.StableHlo.Run
import Idealize.ShloMosaic.Lib.Pipeline.Value

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- The 16 rows of an output array added lane by lane. -/
def laneSums (A : (⟨S16x1x768, .f32⟩ : BufTy).Contents (Elt F)) : (⟨S768, .f32⟩ : BufTy).Contents (Elt F) :=
  Host.reduceAdd (shapeCast S16x768 A shapeCasts_S16x1x768_S16x768) (constant S_ .f32 0x00000000#32) reducesTo_S16x768_S768_d0 h_S_

/-- The translation total: the first array's lane sums on the translation lanes, zero elsewhere, added over the lanes. -/
def transOf (A : (⟨S16x1x768, .f32⟩ : BufTy).Contents (Elt F)) : (⟨S_, .f32⟩ : BufTy).Contents (Elt F) :=
  Host.reduceAdd (select (Cert.Mask.transLane bcast_S_S768) (laneSums A) (broadcastInDim S768 ![] bcast_S_S768 (constant S_ .f32 0x00000000#32)))
    (constant S_ .f32 0x00000000#32) reducesTo_S768_S_d0 h_S_

/-- The rotation total: the second array's lane sums on the other lanes, zero on the translation lanes, added over the lanes. -/
def rotOf (A : (⟨S16x1x768, .f32⟩ : BufTy).Contents (Elt F)) : (⟨S_, .f32⟩ : BufTy).Contents (Elt F) :=
  Host.reduceAdd (select (Cert.Mask.transLane bcast_S_S768) (broadcastInDim S768 ![] bcast_S_S768 (constant S_ .f32 0x00000000#32)) (laneSums A))
    (constant S_ .f32 0x00000000#32) reducesTo_S768_S_d0 h_S_

/-- A total divided by the number of summands (6291456) and scaled by the translation weight 1. -/
def lossT (X : (⟨S_, .f32⟩ : BufTy).Contents (Elt F)) : (⟨S_, .f32⟩ : BufTy).Contents (Elt F) :=
  mulf (Host.divf X (constant S_ .f32 0x4AC00000#32)) (constant S_ .f32 0x3F800000#32)

/-- A total divided by the number of summands and scaled by the rotation weight 100. -/
def lossR (Y : (⟨S_, .f32⟩ : BufTy).Contents (Elt F)) : (⟨S_, .f32⟩ : BufTy).Contents (Elt F) :=
  mulf (Host.divf Y (constant S_ .f32 0x4AC00000#32)) (constant S_ .f32 0x42C80000#32)

variable (m : (ℓ : Loc nD τ sig) → Buf (Elt F) ℓ)

/-- After the region the first output array's buffer holds what the proof data compute for window 2. -/
theorem arr2 (c : Dev nD) :
    Pipeline.withArrays (cfgs 0).spec c (V0 m c) (fun w => (dats m 0 c).arrAt w (cfgs 0).N) (Proc.devRef .tc main_v2_0)
      = (dats m 0 c).arrAt 2 cfg0.N :=
  Pipeline.withArrays_arr spec0 launch0.win.arr_inj c (V0 m c) (fun w => (dats m 0 c).arrAt w cfg0.N) 2

/-- And the second output array's, window 3. -/
theorem arr3 (c : Dev nD) :
    Pipeline.withArrays (cfgs 0).spec c (V0 m c) (fun w => (dats m 0 c).arrAt w (cfgs 0).N) (Proc.devRef .tc main_v2_1)
      = (dats m 0 c).arrAt 3 cfg0.N :=
  Pipeline.withArrays_arr spec0 launch0.win.arr_inj c (V0 m c) (fun w => (dats m 0 c).arrAt w cfg0.N) 3

set_option maxHeartbeats 2000000 in
/-- The translation loss after the run. -/
theorem tail_v16 (c : Dev nD) :
    Pipeline.afterTail₀ cfgs (dats m) 0 (V0 m) [hostOps1, hostOps1_1, hostOps1_2, hostOps1_3, hostOps1_4, hostOps1_5, hostOps1_6] c main_v16
      = lossT (transOf ((dats m 0 c).arrAt 2 cfg0.N)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  rw [arr2]
  rfl

set_option maxHeartbeats 2000000 in
/-- The rotation loss after the run. -/
theorem tail_v18 (c : Dev nD) :
    Pipeline.afterTail₀ cfgs (dats m) 0 (V0 m) [hostOps1, hostOps1_1, hostOps1_2, hostOps1_3, hostOps1_4, hostOps1_5, hostOps1_6] c main_v18
      = lossR (rotOf ((dats m 0 c).arrAt 3 cfg0.N)) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  rw [arr3]
  rfl

set_option maxHeartbeats 4000000 in
/-- The total loss after the run. -/
theorem tail_v19 (c : Dev nD) :
    Pipeline.afterTail₀ cfgs (dats m) 0 (V0 m) [hostOps1, hostOps1_1, hostOps1_2, hostOps1_3, hostOps1_4, hostOps1_5, hostOps1_6] c main_v19
      = addf (lossT (transOf ((dats m 0 c).arrAt 2 cfg0.N))) (lossR (rotOf ((dats m 0 c).arrAt 3 cfg0.N))) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  rw [arr2, arr3]
  rfl

end Cert.KernelIdeal.Tail

end
-- ==== Proof.Spec.lean ====
/-
  The loss, as mathematics over the extended reals.

  The two arguments are arrays indexed by (sample b < 16384, step t < 128, channel d < 6). Channels 0, 1, 2 are
  translations and channels 3, 4, 5 rotation angles. The translation term is the sum over all (b, t) and the three
  translation channels of the squared difference; the rotation term is the same sum over the rotation channels of the
  squared difference of the two angles after each has been wrapped once towards (-π, π] (subtract 2π above π, add 2π
  below -π), with π and 2π the single-precision constants. Each result is its sum divided by the number of summands
  and scaled by its weight; the reported total is their sum.
-/
import Idealize.ShloMosaic.PureOps.Ideal
import Idealize.ShloMosaic.PureOps.Ideal.Laws
import Idealize.ShloMosaic.Lib.ValueIdx

open scoped BigOperators

noncomputable section

namespace Cert.Spec

open Idealize.ShloMosaic Idealize.ShloMosaic.ValueIdx

/-- An argument array: one extended real per (sample, step, channel). -/
abbrev Arr : Type := (⟨3, ![16384, 128, 6]⟩ : Shape).Idx → EReal

/-- π in single precision. -/
def piE : EReal := Ideal.ofBits .f32 0x40490FDB#32
/-- 2π in single precision. -/
def twoPiE : EReal := Ideal.ofBits .f32 0x40C90FDB#32

/-- One wrap of an angle towards (-π, π]. -/
def wrap (a : EReal) : EReal :=
  Scalar.select (Ideal.cmp .ogt a piE) (a - twoPiE) (Scalar.select (Ideal.cmp .olt a (-piE)) (a + twoPiE) a)

/-- The squared difference. -/
def sq (a b : EReal) : EReal := (a - b) * (a - b)
/-- The squared difference of the wrapped angles. -/
def sqw (a b : EReal) : EReal := (wrap a - wrap b) * (wrap a - wrap b)

/-- Translation channel `d` among the six. -/
def lo (d : Fin 3) : Fin 6 := ⟨d.val, by have := d.isLt; omega⟩
/-- Rotation channel `d` among the six. -/
def hi (d : Fin 3) : Fin 6 := ⟨3 + d.val, by have := d.isLt; omega⟩

/-- The sum of squared translation differences. -/
def transSum (P T : Arr) : EReal :=
  ∑ b : Fin 16384, ∑ t : Fin 128, ∑ d : Fin 3, sq (P (ix3 b t (lo d))) (T (ix3 b t (lo d)))
/-- The sum of squared wrapped rotation differences. -/
def rotSum (P T : Arr) : EReal :=
  ∑ b : Fin 16384, ∑ t : Fin 128, ∑ d : Fin 3, sqw (P (ix3 b t (hi d))) (T (ix3 b t (hi d)))

/-- The single-precision pattern with π's magnitude and the sign bit set denotes -π. -/
theorem neg_pi : Ideal.ofBits .f32 0xC0490FDB#32 = -piE := by
  -- The two patterns share exponent and fraction fields and differ in the sign bit alone: both are normal numbers
  -- of the same magnitude, of signs -1 and 1.
  unfold piE
  simp [Ideal.ofBits, Ideal.ieee, -EReal.coe_mul, -EReal.coe_neg]
  exact EReal.coe_neg _

end Cert.Spec

end
-- ==== Proof.Payload.lean ====
/-
  What one grid point computes, lane by lane.

  A point holds a block of 1024 rows by 768 lanes of each argument. Its first result is, at each lane, the sum over the
  1024 rows of the squared difference of the two blocks; its second result is the same sum of the squared difference of
  the two wrapped angles. The result vectors carry two leading unit axes that only re-label the lane.
-/
import proofs.«402585_j8753143349669_3_alg».proof.Proof.Gen.KernelIdeal.Skeleton
import proofs.«402585_j8753143349669_3_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Payload

open Cert.KernelIdeal Cert.KernelIdeal.Gen Idealize.ShloMosaic Idealize.ShloMosaic.ValueIdx

/-- A cast that adds two leading unit axes to the lane sums re-labels the lane: at lane `c` the result is the sum over
    the 1024 rows of the block's entries at `(r, c)`. -/
private theorem red_apply (src : FVec Ideal S1024x768 .f32) (c : Fin 768) :
    shapeCast S1x1x768
        (shapeCast S1x768
          (multiReduction .add [0] S768 src 0x00000000#32 reduces_S1024x768_S768 (.inl rfl) rfl)
          shapeCasts_S768_S1x768)
        shapeCasts_S1x768_S1x1x768 (ix3 (0 : Fin 1) (0 : Fin 1) c)
      = ∑ r : Fin 1024, src (ix2 r c) := by
  -- Each added unit axis keeps the lane; the sum over axis 0 at lane `c` runs over the entries `(r, c)`.
  refine (shapeCast_ab_1ab_apply _ _ _ _ _).trans ?_
  refine (shapeCast_a_1a_apply _ _ _ _).trans ?_
  refine (Ideal.multiReduction_add_single src 0x00000000#32 reduces_S1024x768_S768 (.inl rfl) rfl (ix1 c)).trans ?_
  show ∑ r : Fin 1024, src (reduces_S1024x768_S768.lift (ix1 c) r) = _
  refine Finset.sum_congr rfl fun r _ => congrArg src ?_
  funext a
  match a with
  | ⟨0, _⟩ => rfl
  | ⟨1, _⟩ => rfl

/-- The first result of a point at lane `c`: the rows' squared differences, summed. -/
theorem pay3_apply (x0 x1 : Vec Ideal S1024x768 .f32) (c : Fin 768) :
    k0_pay3 (F := Ideal) x0 x1 (ix3 (0 : Fin 1) (0 : Fin 1) c)
      = ∑ r : Fin 1024, Cert.Spec.sq (x0 (ix2 r c)) (x1 (ix2 r c)) := by
  unfold k0_pay3 k0_pay1 k0_pay2
  -- The lane sum, then row by row: a cast to the same shape is the identity, and the product of the differences at
  -- an entry is the squared difference of the entries.
  refine (red_apply _ c).trans ?_
  refine Finset.sum_congr rfl fun r _ => ?_
  rw [shapeCast_self, shapeCast_self]
  rfl

/-- The second result of a point at lane `c`: the rows' squared differences of the wrapped angles, summed. -/
theorem pay4_apply (x0 x1 : Vec Ideal S1024x768 .f32) (c : Fin 768) :
    k0_pay4 (F := Ideal) x0 x1 (ix3 (0 : Fin 1) (0 : Fin 1) c)
      = ∑ r : Fin 1024, Cert.Spec.sqw (x0 (ix2 r c)) (x1 (ix2 r c)) := by
  unfold k0_pay4 k0_pay1 k0_pay2
  refine (red_apply _ c).trans ?_
  refine Finset.sum_congr rfl fun r _ => ?_
  -- Row by row, each entry is wrapped by the two comparisons against π and -π, the latter written by its own
  -- single-precision pattern, which denotes the negation of π's.
  rw [shapeCast_self, shapeCast_self]
  unfold Cert.Spec.sqw Cert.Spec.wrap
  rw [← Cert.Spec.neg_pi]
  rfl

end Cert.KernelIdeal.Payload

end
-- ==== Proof.Arrays.lean ====
/-
  The two arrays the region leaves, as functions of the two arrays it reads.

  The region reads two arrays of 16384 rows by 768 lanes in 16 blocks of 1024 rows. Point t of the grid reads block t
  of each and writes block t (one row of 768 lanes) of each output array: at lane c, the sum over the block's 1024
  rows of the squared difference (first output), or of the squared difference of the wrapped angles (second output).
  The 16 written blocks tile each output array, so after the run entry (q, 0, c) of an output array is that sum over
  rows 1024·q … 1024·q + 1023 of the inputs at lane c.
-/
import proofs.«402585_j8753143349669_3_alg».proof.Proof.Gen.KernelIdeal.Frame
import proofs.«402585_j8753143349669_3_alg».proof.Proof.Spec
import proofs.«402585_j8753143349669_3_alg».proof.Proof.Payload
import Idealize.ShloMosaic.Lib.Pipeline.Value
import Idealize.ShloMosaic.Lib.ValueIdx

open scoped BigOperators

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Entry (q, 0, c) of an output array: `f` of the two inputs at lane c, summed over the 1024 rows of block q. -/
def blockSums (f : EReal → EReal → EReal) (A B : S16384x768.Idx → EReal) : S16x1x768.Idx → EReal := fun i =>
  ∑ r : Fin 1024,
    f (A (ix2 (⟨1024 * (i 0).val + r.val, by have h0 : (i 0).val < 16 := (i 0).isLt; have := r.isLt; omega⟩ : Fin 16384)
            (⟨(i 2).val, (i 2).isLt⟩ : Fin 768)))
      (B (ix2 (⟨1024 * (i 0).val + r.val, by have h0 : (i 0).val < 16 := (i 0).isLt; have := r.isLt; omega⟩ : Fin 16384)
            (⟨(i 2).val, (i 2).isLt⟩ : Fin 768)))

theorem hz2 : (![0, 0] : Fin 2 → Nat) = fun _ => 0 := funext fun a => by fin_cases a <;> rfl
theorem hz3 : (![0, 0, 0] : Fin 3 → Nat) = fun _ => 0 := funext fun a => by fin_cases a <;> rfl

/-- A point's first result at any index of its block: the unit axes carry no information. -/
theorem pay3_at (x0 x1 : Vec Ideal S1024x768 .f32) (j : S1x1x768.Idx) :
    k0_pay3 (F := Ideal) x0 x1 j
      = ∑ r : Fin 1024, Cert.Spec.sq (x0 (ix2 r (⟨(j 2).val, (j 2).isLt⟩ : Fin 768))) (x1 (ix2 r (⟨(j 2).val, (j 2).isLt⟩ : Fin 768))) := by
  obtain ⟨a, b, c, rfl⟩ : ∃ (a : Fin 1) (b : Fin 1) (c : Fin 768), j = ix3 a b c := ⟨j 0, j 1, j 2, eq_ix3 j⟩
  obtain rfl : a = 0 := Subsingleton.elim _ _
  obtain rfl : b = 0 := Subsingleton.elim _ _
  exact Cert.KernelIdeal.Payload.pay3_apply x0 x1 c

/-- A point's second result at any index of its block. -/
theorem pay4_at (x0 x1 : Vec Ideal S1024x768 .f32) (j : S1x1x768.Idx) :
    k0_pay4 (F := Ideal) x0 x1 j
      = ∑ r : Fin 1024, Cert.Spec.sqw (x0 (ix2 r (⟨(j 2).val, (j 2).isLt⟩ : Fin 768))) (x1 (ix2 r (⟨(j 2).val, (j 2).isLt⟩ : Fin 768))) := by
  obtain ⟨a, b, c, rfl⟩ : ∃ (a : Fin 1) (b : Fin 1) (c : Fin 768), j = ix3 a b c := ⟨j 0, j 1, j 2, eq_ix3 j⟩
  obtain rfl : a = 0 := Subsingleton.elim _ _
  obtain rfl : b = 0 := Subsingleton.elim _ _
  exact Cert.KernelIdeal.Payload.pay4_apply x0 x1 c

/-- The printed index maps over the 16 points: every window's block index is the point's number on its leading axis
    and zero on the others. -/
theorem idx_facts : ∀ t : Fin cfg0.N,
    win0_0.index t (0 : Fin 2) = win0_2.index t (0 : Fin 3) ∧ win0_0.index t (1 : Fin 2) = 0
    ∧ win0_1.index t (0 : Fin 2) = win0_2.index t (0 : Fin 3) ∧ win0_1.index t (1 : Fin 2) = 0
    ∧ win0_2.index t (1 : Fin 3) = 0 ∧ win0_2.index t (2 : Fin 3) = 0 ∧ win0_2.index t (0 : Fin 3) ≤ 15
    ∧ win0_3.index t (0 : Fin 3) = win0_2.index t (0 : Fin 3) ∧ win0_3.index t (1 : Fin 3) = 0 ∧ win0_3.index t (2 : Fin 3) = 0 :=
  (by decide +kernel : ∀ t : Fin grid0.N, _)

/-- Every block of an output array is some point's. -/
theorem idx_onto2 : ∀ q : Fin 16, ∃ t : Fin cfg0.N, win0_2.index t = ![q.val, 0, 0] :=
  (by decide +kernel : ∀ q : Fin 16, ∃ t : Fin grid0.N, win0_2.index t = ![q.val, 0, 0])
theorem idx_onto3 : ∀ q : Fin 16, ∃ t : Fin cfg0.N, win0_3.index t = ![q.val, 0, 0] :=
  (by decide +kernel : ∀ q : Fin 16, ∃ t : Fin grid0.N, win0_3.index t = ![q.val, 0, 0])

/-! ## The first output array -/

/-- What point `t` writes back to the first output array is block `t` of the block sums of squared differences. -/
theorem flushed2_eq (c : Dev nD) (t : Fin cfg0.N) :
    (dats m 0 c).flushed 2 t
      = ((cfg0.win 2).blk t).view.read (Elt Ideal) (blockSums Cert.Spec.sq (V m c main_v0) (V m c main_v1)) := by
  show (cfg0.win 2).cut (grid0.coords t) ((dats m 0 c).after 2 t) = _
  rw [after0_2]
  unfold out0_2
  rw [View.canon_unit_zero hz3]
  simp only [View.ld_unit_zero (S := S1024x768) hz2]
  obtain ⟨e0, e1, e2, e3, e4, e5, e6, e7, e8, e9⟩ := idx_facts t
  funext j
  have hp := pay3_at (iblk m c 0 t) (iblk m c 1 t) j
  show k0_pay3 (F := Ideal) (iblk m c 0 t) (iblk m c 1 t) j
      = blockSums Cert.Spec.sq (V m c main_v0) (V m c main_v1) (((cfg0.win 2).blk t).view.emb j)
  refine hp.trans ?_
  unfold blockSums
  refine Finset.sum_congr rfl fun r _ => ?_
  have hj0 : (j 0).val < 1 := (j 0).isLt
  have hj2 : (j 2).val < 768 := (j 2).isLt
  have h0 : ((cfg0.win 0).blk t).view.emb (ix2 r (⟨(j 2).val, (j 2).isLt⟩ : Fin 768))
      = ix2 (⟨1024 * ((((cfg0.win 2).blk t).view.emb j) 0).val + r.val, by
              have : ((((cfg0.win 2).blk t).view.emb j) 0).val < 16 := ((((cfg0.win 2).blk t).view.emb j) 0).isLt
              have := r.isLt; omega⟩ : Fin 16384)
          (⟨((((cfg0.win 2).blk t).view.emb j) 2).val, ((((cfg0.win 2).blk t).view.emb j) 2).isLt⟩ : Fin 768) := by
    funext a; apply Fin.ext
    match a with
    | ⟨0, _⟩ =>
      show win0_0.index t (0 : Fin 2) * 1024 + 1 * r.val = 1024 * (win0_2.index t (0 : Fin 3) * 1 + 1 * (j 0).val) + r.val
      omega
    | ⟨1, _⟩ =>
      show win0_0.index t (1 : Fin 2) * 768 + 1 * (j 2).val = win0_2.index t (2 : Fin 3) * 768 + 1 * (j 2).val
      omega
  have h1 : ((cfg0.win 1).blk t).view.emb (ix2 r (⟨(j 2).val, (j 2).isLt⟩ : Fin 768))
      = ix2 (⟨1024 * ((((cfg0.win 2).blk t).view.emb j) 0).val + r.val, by
              have : ((((cfg0.win 2).blk t).view.emb j) 0).val < 16 := ((((cfg0.win 2).blk t).view.emb j) 0).isLt
              have := r.isLt; omega⟩ : Fin 16384)
          (⟨((((cfg0.win 2).blk t).view.emb j) 2).val, ((((cfg0.win 2).blk t).view.emb j) 2).isLt⟩ : Fin 768) := by
    funext a; apply Fin.ext
    match a with
    | ⟨0, _⟩ =>
      show win0_1.index t (0 : Fin 2) * 1024 + 1 * r.val = 1024 * (win0_2.index t (0 : Fin 3) * 1 + 1 * (j 0).val) + r.val
      omega
    | ⟨1, _⟩ =>
      show win0_1.index t (1 : Fin 2) * 768 + 1 * (j 2).val = win0_2.index t (2 : Fin 3) * 768 + 1 * (j 2).val
      omega
  show Cert.Spec.sq (V m c main_v0 (((cfg0.win 0).blk t).view.emb (ix2 r (⟨(j 2).val, (j 2).isLt⟩ : Fin 768))))
        (V m c main_v1 (((cfg0.win 1).blk t).view.emb (ix2 r (⟨(j 2).val, (j 2).isLt⟩ : Fin 768)))) = _
  rw [h0, h1]

/-- An index of the first output array is in point `t`'s block iff each coordinate is in the block's range. -/
theorem mem_blk2 (t : Fin cfg0.N) (i : S16x1x768.Idx) :
    i ∈ ((cfg0.win 2).blk t).view.set ↔ ∀ a : Fin 3, win0_2.index t a * S1x1x768.size a ≤ (i a).val ∧ (i a).val < win0_2.index t a * S1x1x768.size a + S1x1x768.size a := by
  show i ∈ ((View.whole main_v2_0).slice (win0_2.rect t)).set ↔ _
  rw [View.set_slice_whole, Rect.mem_set_unit]
  exact Iff.rfl

/-- Every index of the first output array is in the block of the point numbered by its leading coordinate. -/
theorem cover2 (i : S16x1x768.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 768 := (i 2).isLt
  obtain ⟨t, ht⟩ := idx_onto2 ⟨(i 0).val, h0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 768 ≤ (i 2).val ∧ (i 2).val < win0_2.index t (2 : Fin 3) * 768 + 768; omega

/-- The first output array after the run. -/
theorem final2 (c : Dev nD) :
    (dats m 0 c).arrAt 2 cfg0.N = blockSums Cert.Spec.sq (V m c main_v0) (V m c main_v1) :=
  (dats m 0 c).arrAt_eq_of_cover 2 _ (fun t _ => flushed2_eq m c t) cover2

/-! ## The second output array -/

/-- What point `t` writes back to the second output array is block `t` of the block sums of squared differences of the wrapped angles. -/
theorem flushed3_eq (c : Dev nD) (t : Fin cfg0.N) :
    (dats m 0 c).flushed 3 t
      = ((cfg0.win 3).blk t).view.read (Elt Ideal) (blockSums Cert.Spec.sqw (V m c main_v0) (V m c main_v1)) := by
  show (cfg0.win 3).cut (grid0.coords t) ((dats m 0 c).after 3 t) = _
  rw [after0_3]
  unfold out0_3
  rw [View.canon_unit_zero hz3]
  simp only [View.ld_unit_zero (S := S1024x768) hz2]
  obtain ⟨e0, e1, e2, e3, e4, e5, e6, e7, e8, e9⟩ := idx_facts t
  funext j
  have hp := pay4_at (iblk m c 0 t) (iblk m c 1 t) j
  show k0_pay4 (F := Ideal) (iblk m c 0 t) (iblk m c 1 t) j
      = blockSums Cert.Spec.sqw (V m c main_v0) (V m c main_v1) (((cfg0.win 3).blk t).view.emb j)
  refine hp.trans ?_
  unfold blockSums
  refine Finset.sum_congr rfl fun r _ => ?_
  have hj0 : (j 0).val < 1 := (j 0).isLt
  have hj2 : (j 2).val < 768 := (j 2).isLt
  have h0 : ((cfg0.win 0).blk t).view.emb (ix2 r (⟨(j 2).val, (j 2).isLt⟩ : Fin 768))
      = ix2 (⟨1024 * ((((cfg0.win 3).blk t).view.emb j) 0).val + r.val, by
              have : ((((cfg0.win 3).blk t).view.emb j) 0).val < 16 := ((((cfg0.win 3).blk t).view.emb j) 0).isLt
              have := r.isLt; omega⟩ : Fin 16384)
          (⟨((((cfg0.win 3).blk t).view.emb j) 2).val, ((((cfg0.win 3).blk t).view.emb j) 2).isLt⟩ : Fin 768) := by
    funext a; apply Fin.ext
    match a with
    | ⟨0, _⟩ =>
      show win0_0.index t (0 : Fin 2) * 1024 + 1 * r.val = 1024 * (win0_3.index t (0 : Fin 3) * 1 + 1 * (j 0).val) + r.val
      omega
    | ⟨1, _⟩ =>
      show win0_0.index t (1 : Fin 2) * 768 + 1 * (j 2).val = win0_3.index t (2 : Fin 3) * 768 + 1 * (j 2).val
      omega
  have h1 : ((cfg0.win 1).blk t).view.emb (ix2 r (⟨(j 2).val, (j 2).isLt⟩ : Fin 768))
      = ix2 (⟨1024 * ((((cfg0.win 3).blk t).view.emb j) 0).val + r.val, by
              have : ((((cfg0.win 3).blk t).view.emb j) 0).val < 16 := ((((cfg0.win 3).blk t).view.emb j) 0).isLt
              have := r.isLt; omega⟩ : Fin 16384)
          (⟨((((cfg0.win 3).blk t).view.emb j) 2).val, ((((cfg0.win 3).blk t).view.emb j) 2).isLt⟩ : Fin 768) := by
    funext a; apply Fin.ext
    match a with
    | ⟨0, _⟩ =>
      show win0_1.index t (0 : Fin 2) * 1024 + 1 * r.val = 1024 * (win0_3.index t (0 : Fin 3) * 1 + 1 * (j 0).val) + r.val
      omega
    | ⟨1, _⟩ =>
      show win0_1.index t (1 : Fin 2) * 768 + 1 * (j 2).val = win0_3.index t (2 : Fin 3) * 768 + 1 * (j 2).val
      omega
  show Cert.Spec.sqw (V m c main_v0 (((cfg0.win 0).blk t).view.emb (ix2 r (⟨(j 2).val, (j 2).isLt⟩ : Fin 768))))
        (V m c main_v1 (((cfg0.win 1).blk t).view.emb (ix2 r (⟨(j 2).val, (j 2).isLt⟩ : Fin 768)))) = _
  rw [h0, h1]

/-- An index of the second output array is in point `t`'s block iff each coordinate is in the block's range. -/
theorem mem_blk3 (t : Fin cfg0.N) (i : S16x1x768.Idx) :
    i ∈ ((cfg0.win 3).blk t).view.set ↔ ∀ a : Fin 3, win0_3.index t a * S1x1x768.size a ≤ (i a).val ∧ (i a).val < win0_3.index t a * S1x1x768.size a + S1x1x768.size a := by
  show i ∈ ((View.whole main_v2_1).slice (win0_3.rect t)).set ↔ _
  rw [View.set_slice_whole, Rect.mem_set_unit]
  exact Iff.rfl

/-- Every index of the second output array is in the block of the point numbered by its leading coordinate. -/
theorem cover3 (i : S16x1x768.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 768 := (i 2).isLt
  obtain ⟨t, ht⟩ := idx_onto3 ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 768 ≤ (i 2).val ∧ (i 2).val < win0_3.index t (2 : Fin 3) * 768 + 768; omega

/-- The second output array after the run. -/
theorem final3 (c : Dev nD) :
    (dats m 0 c).arrAt 3 cfg0.N = blockSums Cert.Spec.sqw (V m c main_v0) (V m c main_v1) :=
  (dats m 0 c).arrAt_eq_of_cover 3 _ (fun t _ => flushed3_eq m c t) cover3

end Cert.KernelIdeal.Arrays

end
-- ==== Proof.LibIdxSums.lean ====
/-
  Sums over the index set of a shape, as iterated sums over its coordinates.

  An index of a shape of rank n is a tuple of n coordinates, each below its extent, so the index set is the product of the
  coordinate ranges and a sum over it (in any commutative monoid) is the iterated sum over the coordinates. Stated here
  for rank 1 and rank 3, beside the library's rank-2 form, with the indices built from their coordinates.
-/
import Mathlib.Algebra.BigOperators.Fin
import Mathlib.Algebra.BigOperators.Group.Finset.Basic
import Idealize.ShloMosaic.Lib.ValueIdx

open scoped BigOperators

namespace Cert.LibIdxSums

open Idealize.ShloMosaic Idealize.ShloMosaic.ValueIdx

variable {M : Type*} [AddCommMonoid M]

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over the indices of a rank-1 shape is the sum over its coordinate. -/
theorem sum_idx1 {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 shape is the triple sum over its coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums
-- ==== Proof.SumLaw.lean ====
/-
  Reindexing of finite sums, over any commutative monoid.

  A batch of 16384 rows is read as 16 blocks of 1024 rows; a lane-dense row of 768 lanes is 128 groups of 6
  channels, lane `c` being channel `c % 6` of group `c / 6`; the first three channels of a group are the
  translation channels, the last three the rotation channels. A sum taken block by block and lane by lane, with the
  lanes of the other kind contributing zero, is the sum over (row, group, channel of the kind). Only
  commutativity and associativity of addition are used, so the laws hold in the extended reals as they stand.
-/
import Mathlib.Algebra.BigOperators.Fin
import Mathlib.Algebra.BigOperators.Group.Finset.Basic
import Idealize.ShloMosaic.Lib.ValueIdx
import proofs.«402585_j8753143349669_3_alg».proof.Proof.LibIdxSums

open scoped BigOperators

namespace Cert.SumLaw

open Idealize.ShloMosaic Idealize.ShloMosaic.ValueIdx

variable {M : Type*} [AddCommMonoid M]

/-- Row `b` of 16384 is row `b % 1024` of block `b / 1024`. -/
private def rowEquiv : Fin 16 × Fin 1024 ≃ Fin 16384 where
  toFun p := ⟨1024 * p.1.val + p.2.val, by have := p.1.isLt; have := p.2.isLt; omega⟩
  invFun b := (⟨b.val / 1024, by have := b.isLt; omega⟩, ⟨b.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv b := by
    refine Fin.ext ?_
    show 1024 * (b.val / 1024) + b.val % 1024 = b.val
    omega

/-- Lane `c` of 768 is channel `c % 6` of group `c / 6`. -/
private def laneEquiv : Fin 128 × Fin 6 ≃ Fin 768 where
  toFun p := ⟨6 * p.1.val + p.2.val, by have := p.1.isLt; have := p.2.isLt; omega⟩
  invFun c := (⟨c.val / 6, by have := c.isLt; omega⟩, ⟨c.val % 6, by omega⟩)
  left_inv p := by
    have h1 := p.1.isLt
    have h2 := p.2.isLt
    refine Prod.ext (Fin.ext ?_) (Fin.ext ?_)
    · show (6 * p.1.val + p.2.val) / 6 = p.1.val
      omega
    · show (6 * p.1.val + p.2.val) % 6 = p.2.val
      omega
  right_inv c := by
    refine Fin.ext ?_
    show 6 * (c.val / 6) + c.val % 6 = c.val
    omega

/-- A sum over the 768 lanes of a term read at (group, channel) is the double sum over groups and channels. -/
private theorem sum_lanes (h : Fin 128 → Fin 6 → M) :
    ∑ c : Fin 768, h ⟨c.val / 6, by have := c.isLt; omega⟩ ⟨c.val % 6, by omega⟩ = ∑ t : Fin 128, ∑ d : Fin 6, h t d := by
  rw [← Fintype.sum_prod_type (f := fun p : Fin 128 × Fin 6 => h p.1 p.2)]
  exact Equiv.sum_comp laneEquiv.symm (fun p : Fin 128 × Fin 6 => h p.1 p.2)

/-- A sum over the indices of a rank-3 shape is the triple sum over its coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) :=
  Cert.LibIdxSums.sum_idx3 f

/-- Sixteen blocks of 1024 rows are the 16384 rows. -/
theorem sum_rows (g : Fin 16384 → M) :
    ∑ q : Fin 16, ∑ r : Fin 1024, g ⟨1024 * q.val + r.val, by have := q.isLt; have := r.isLt; omega⟩ = ∑ b : Fin 16384, g b := by
  rw [← Equiv.sum_comp rowEquiv g, Fintype.sum_prod_type]
  rfl

/-- Summing over the 768 lanes a term that vanishes off the translation channels is summing over (group, translation channel). -/
theorem sum_lanes_lo (g : Fin 128 → Fin 6 → M) :
    ∑ c : Fin 768, (if c.val % 6 < 3 then g ⟨c.val / 6, by have := c.isLt; omega⟩ ⟨c.val % 6, by omega⟩ else 0)
      = ∑ t : Fin 128, ∑ d : Fin 3, g t ⟨d.val, by have := d.isLt; omega⟩ := by
  refine (sum_lanes (fun t d => if d.val < 3 then g t d else 0)).trans ?_
  refine Finset.sum_congr rfl fun t _ => ?_
  rw [Fin.sum_univ_six, Fin.sum_univ_three,
    if_pos (by decide : (0 : Fin 6).val < 3), if_pos (by decide : (1 : Fin 6).val < 3),
    if_pos (by decide : (2 : Fin 6).val < 3), if_neg (by decide : ¬ (3 : Fin 6).val < 3),
    if_neg (by decide : ¬ (4 : Fin 6).val < 3), if_neg (by decide : ¬ (5 : Fin 6).val < 3)]
  simp only [add_zero]
  rfl

/-- Summing over the 768 lanes a term that vanishes on the translation channels is summing over (group, rotation channel). -/
theorem sum_lanes_hi (g : Fin 128 → Fin 6 → M) :
    ∑ c : Fin 768, (if c.val % 6 < 3 then 0 else g ⟨c.val / 6, by have := c.isLt; omega⟩ ⟨c.val % 6, by omega⟩)
      = ∑ t : Fin 128, ∑ d : Fin 3, g t ⟨3 + d.val, by have := d.isLt; omega⟩ := by
  refine (sum_lanes (fun t d => if d.val < 3 then 0 else g t d)).trans ?_
  refine Finset.sum_congr rfl fun t _ => ?_
  rw [Fin.sum_univ_six, Fin.sum_univ_three,
    if_pos (by decide : (0 : Fin 6).val < 3), if_pos (by decide : (1 : Fin 6).val < 3),
    if_pos (by decide : (2 : Fin 6).val < 3), if_neg (by decide : ¬ (3 : Fin 6).val < 3),
    if_neg (by decide : ¬ (4 : Fin 6).val < 3), if_neg (by decide : ¬ (5 : Fin 6).val < 3)]
  simp only [zero_add]
  rfl

/-- Lane by lane and block by block over the translation channels = row by row, group by group, channel by channel. -/
theorem blocks_lanes_lo (f : Fin 16384 → Fin 128 → Fin 6 → M) :
    ∑ c : Fin 768, (if c.val % 6 < 3 then
        ∑ q : Fin 16, ∑ r : Fin 1024, f ⟨1024 * q.val + r.val, by have := q.isLt; have := r.isLt; omega⟩ ⟨c.val / 6, by have := c.isLt; omega⟩ ⟨c.val % 6, by omega⟩
      else 0)
      = ∑ b : Fin 16384, ∑ t : Fin 128, ∑ d : Fin 3, f b t ⟨d.val, by have := d.isLt; omega⟩ := by
  refine (sum_lanes_lo (fun t d => ∑ q : Fin 16, ∑ r : Fin 1024,
    f ⟨1024 * q.val + r.val, by have := q.isLt; have := r.isLt; omega⟩ t d)).trans ?_
  calc ∑ t : Fin 128, ∑ d : Fin 3, ∑ q : Fin 16, ∑ r : Fin 1024,
          f ⟨1024 * q.val + r.val, by have := q.isLt; have := r.isLt; omega⟩ t ⟨d.val, by have := d.isLt; omega⟩
      = ∑ t : Fin 128, ∑ d : Fin 3, ∑ b : Fin 16384, f b t ⟨d.val, by have := d.isLt; omega⟩ :=
        Finset.sum_congr rfl fun t _ => Finset.sum_congr rfl fun d _ =>
          sum_rows (fun b => f b t ⟨d.val, by have := d.isLt; omega⟩)
    _ = ∑ t : Fin 128, ∑ b : Fin 16384, ∑ d : Fin 3, f b t ⟨d.val, by have := d.isLt; omega⟩ :=
        Finset.sum_congr rfl fun t _ => Finset.sum_comm
    _ = _ := Finset.sum_comm

/-- The same over the rotation channels. -/
theorem blocks_lanes_hi (f : Fin 16384 → Fin 128 → Fin 6 → M) :
    ∑ c : Fin 768, (if c.val % 6 < 3 then 0 else
        ∑ q : Fin 16, ∑ r : Fin 1024, f ⟨1024 * q.val + r.val, by have := q.isLt; have := r.isLt; omega⟩ ⟨c.val / 6, by have := c.isLt; omega⟩ ⟨c.val % 6, by omega⟩)
      = ∑ b : Fin 16384, ∑ t : Fin 128, ∑ d : Fin 3, f b t ⟨3 + d.val, by have := d.isLt; omega⟩ := by
  refine (sum_lanes_hi (fun t d => ∑ q : Fin 16, ∑ r : Fin 1024,
    f ⟨1024 * q.val + r.val, by have := q.isLt; have := r.isLt; omega⟩ t d)).trans ?_
  calc ∑ t : Fin 128, ∑ d : Fin 3, ∑ q : Fin 16, ∑ r : Fin 1024,
          f ⟨1024 * q.val + r.val, by have := q.isLt; have := r.isLt; omega⟩ t ⟨3 + d.val, by have := d.isLt; omega⟩
      = ∑ t : Fin 128, ∑ d : Fin 3, ∑ b : Fin 16384, f b t ⟨3 + d.val, by have := d.isLt; omega⟩ :=
        Finset.sum_congr rfl fun t _ => Finset.sum_congr rfl fun d _ =>
          sum_rows (fun b => f b t ⟨3 + d.val, by have := d.isLt; omega⟩)
    _ = ∑ t : Fin 128, ∑ b : Fin 16384, ∑ d : Fin 3, f b t ⟨3 + d.val, by have := d.isLt; omega⟩ :=
        Finset.sum_congr rfl fun t _ => Finset.sum_comm
    _ = _ := Finset.sum_comm

end Cert.SumLaw
-- ==== Proof.KernelSide.lean ====
/-
  The kernel's two totals are the specification's two sums.

  After the region, entry (q, 0, c) of an output array is the sum, over the 1024 rows of block q, of the squared
  difference at lane c of the two inputs; an input's entry (b, c) is the argument's entry (b, c div 6, c mod 6), since
  the inputs are the arguments with their last two axes merged. The host then adds the 16 blocks lane by lane, keeps
  the translation lanes (c mod 6 < 3) of the first array and the other lanes of the second, and adds over the lanes.
  Re-ordering the finite sum, the first total is the sum over every (sample, step, translation channel) and the second
  over every (sample, step, rotation channel): the specification's sums.
-/
import proofs.«402585_j8753143349669_3_alg».proof.Proof.Tail
import proofs.«402585_j8753143349669_3_alg».proof.Proof.Arrays
import proofs.«402585_j8753143349669_3_alg».proof.Proof.Spec
import proofs.«402585_j8753143349669_3_alg».proof.Proof.SumLaw
import proofs.«402585_j8753143349669_3_alg».proof.Proof.Mask
import proofs.«402585_j8753143349669_3_alg».proof.Proof.LibIdxSums
import Idealize.ShloMosaic.Lib.Pipeline.Value
import Idealize.ShloMosaic.Lib.ValueIdx
import Idealize.ShloMosaic.PureOps.Ideal.Laws

open scoped BigOperators

noncomputable section

namespace Cert.KernelIdeal.KernelSide

open Cert.KernelIdeal Cert.KernelIdeal.Gen Idealize.ShloMosaic Idealize.ShloMosaic.ValueIdx
open Cert.KernelIdeal.Tail Cert.KernelIdeal.Arrays

/-! ## Layout: indices through the two reshapes -/

/-- Merging the last two axes (128 steps of 6 channels into 768 lanes): lane c of row b is step c div 6, channel c mod 6. -/
theorem merged_apply {α : Type} (P : (⟨3, ![16384, 128, 6]⟩ : Shape).Idx → α)
    (h : (⟨3, ![16384, 128, 6]⟩ : Shape).ShapeCasts ⟨2, ![16384, 768]⟩) (b : Fin 16384) (c : Fin 768) :
    shapeCast ⟨2, ![16384, 768]⟩ P h (ix2 b c)
      = P (ix3 b (⟨c.val / 6, by have := c.isLt; omega⟩ : Fin 128) (⟨c.val % 6, by omega⟩ : Fin 6)) := by
  refine shapeCast_apply P h _ _ ?_
  rw [Shape.rowMajor_val_three, Shape.rowMajor_val_two]
  show (b.val * 128 + c.val / 6) * 6 + c.val % 6 = b.val * 768 + c.val
  omega

/-- Dropping the unit axis of an output array. -/
theorem dropped_apply {α : Type} (A : (⟨3, ![16, 1, 768]⟩ : Shape).Idx → α)
    (h : (⟨3, ![16, 1, 768]⟩ : Shape).ShapeCasts ⟨2, ![16, 768]⟩) (q : Fin 16) (c : Fin 768) :
    shapeCast ⟨2, ![16, 768]⟩ A h (ix2 q c) = A (ix3 q (0 : Fin 1) c) := by
  refine shapeCast_apply A h _ _ ?_
  rw [Shape.rowMajor_val_three, Shape.rowMajor_val_two]
  show (q.val * 1 + 0) * 768 + c.val = q.val * 768 + c.val
  omega

/-! ## The host lines read at a lane -/

/-- The lane sums of an output array at lane c: the initial value plus the 16 blocks' entries. -/
theorem laneSums_apply (A : S16x1x768.Idx → EReal) (c : Fin 768) :
    laneSums (F := Ideal) A (ix1 c) = Ideal.ofBits .f32 0x00000000#32 + ∑ q : Fin 16, A (ix3 q (0 : Fin 1) c) := by
  unfold laneSums
  simp only [Host.reduceAdd, Ideal.hostReduceAdd_def]
  have hR : S16x768.Reduces [0] S768 := by decide
  refine (Ideal.hostReduceAdd_single reducesTo_S16x768_S768_d0 hR _ _ (ix1 c)).trans ?_
  refine congrArg₂ (· + ·) rfl ?_
  show ∑ q : Fin 16, shapeCast S16x768 A shapeCasts_S16x1x768_S16x768 (hR.lift (ix1 c) q) = _
  refine Finset.sum_congr rfl fun q _ => ?_
  have e : hR.lift (ix1 c) q = ix2 q c := by
    funext a
    match a with
    | ⟨0, _⟩ => rfl
    | ⟨1, _⟩ => rfl
  rw [e]
  exact dropped_apply A _ q c

/-- The zero vector the select falls back to, at a lane. -/
theorem zeros_apply (c : Fin 768) :
    broadcastInDim S768 ![] bcast_S_S768 (constant (F := Ideal) S_ .f32 0x00000000#32) (ix1 c) = Ideal.ofBits .f32 0x00000000#32 :=
  broadcastInDim_apply _ bcast_S_S768 (constant (F := Ideal) S_ .f32 0x00000000#32) (ix1 c) ix0 (fun a => a.elim0)

/-- A select on the translation-lane test is a case split on the lane's channel. -/
theorem select_lane (x y : S768.Idx → EReal) (c : Fin 768) :
    select (Cert.Mask.transLane bcast_S_S768) x y (ix1 c) = if c.val % 6 < 3 then x (ix1 c) else y (ix1 c) := by
  show Scalar.select (Cert.Mask.transLane bcast_S_S768 (ix1 c)) (x (ix1 c)) (y (ix1 c)) = _
  rw [Cert.Mask.transLane_apply]
  by_cases hc : c.val % 6 < 3
  · rw [if_pos hc, if_pos hc]; exact select_one _ _
  · rw [if_neg hc, if_neg hc]; exact select_zero _ _

/-- The translation total of an output array. -/
theorem transOf_apply (A : S16x1x768.Idx → EReal) (i : S_.Idx) :
    transOf (F := Ideal) A i
      = Ideal.ofBits .f32 0x00000000#32
        + ∑ c : Fin 768, (if c.val % 6 < 3 then Ideal.ofBits .f32 0x00000000#32 + ∑ q : Fin 16, A (ix3 q (0 : Fin 1) c)
            else Ideal.ofBits .f32 0x00000000#32) := by
  unfold transOf
  simp only [Host.reduceAdd, Ideal.hostReduceAdd_def]
  refine (Ideal.hostReduceAdd_total reducesTo_S768_S_d0 (fun b => b.elim0) _ _ i).trans ?_
  refine congrArg₂ (· + ·) rfl ?_
  refine (Cert.LibIdxSums.sum_idx1 _).trans ?_
  refine Finset.sum_congr rfl fun c _ => ?_
  rw [select_lane, laneSums_apply, zeros_apply]

/-- The rotation total of an output array. -/
theorem rotOf_apply (A : S16x1x768.Idx → EReal) (i : S_.Idx) :
    rotOf (F := Ideal) A i
      = Ideal.ofBits .f32 0x00000000#32
        + ∑ c : Fin 768, (if c.val % 6 < 3 then Ideal.ofBits .f32 0x00000000#32
            else Ideal.ofBits .f32 0x00000000#32 + ∑ q : Fin 16, A (ix3 q (0 : Fin 1) c)) := by
  unfold rotOf
  simp only [Host.reduceAdd, Ideal.hostReduceAdd_def]
  refine (Ideal.hostReduceAdd_total reducesTo_S768_S_d0 (fun b => b.elim0) _ _ i).trans ?_
  refine congrArg₂ (· + ·) rfl ?_
  refine (Cert.LibIdxSums.sum_idx1 _).trans ?_
  refine Finset.sum_congr rfl fun c _ => ?_
  rw [select_lane, laneSums_apply, zeros_apply]

/-! ## The two totals -/

/-- An entry of an output array, over the arguments: block q, lane c. -/
theorem blockSums_merged (f : EReal → EReal → EReal) (P T : Cert.Spec.Arr) (q : Fin 16) (c : Fin 768) :
    blockSums f (shapeCast S16384x768 P shapeCasts_S16384x128x6_S16384x768) (shapeCast S16384x768 T shapeCasts_S16384x128x6_S16384x768)
        (ix3 q (0 : Fin 1) c)
      = ∑ r : Fin 1024,
          f (P (ix3 (⟨1024 * q.val + r.val, by have := q.isLt; have := r.isLt; omega⟩ : Fin 16384) (⟨c.val / 6, by have := c.isLt; omega⟩ : Fin 128) (⟨c.val % 6, by omega⟩ : Fin 6)))
            (T (ix3 (⟨1024 * q.val + r.val, by have := q.isLt; have := r.isLt; omega⟩ : Fin 16384) (⟨c.val / 6, by have := c.isLt; omega⟩ : Fin 128) (⟨c.val % 6, by omega⟩ : Fin 6))) := by
  unfold blockSums
  refine Finset.sum_congr rfl fun r _ => ?_
  rw [merged_apply P, merged_apply T]

/-- The kernel's translation total is the specification's translation sum. -/
theorem kern_trans (P T : Cert.Spec.Arr) (i : S_.Idx) :
    transOf (F := Ideal) (blockSums Cert.Spec.sq (shapeCast S16384x768 P shapeCasts_S16384x128x6_S16384x768) (shapeCast S16384x768 T shapeCasts_S16384x128x6_S16384x768)) i
      = Ideal.ofBits .f32 0x00000000#32 + Cert.Spec.transSum P T := by
  rw [transOf_apply]
  refine congrArg₂ (· + ·) rfl ?_
  simp only [blockSums_merged, Ideal.ofBits_zero_f32, zero_add]
  exact Cert.SumLaw.blocks_lanes_lo (fun b t d => Cert.Spec.sq (P (ix3 b t d)) (T (ix3 b t d)))

/-- The kernel's rotation total is the specification's rotation sum. -/
theorem kern_rot (P T : Cert.Spec.Arr) (i : S_.Idx) :
    rotOf (F := Ideal) (blockSums Cert.Spec.sqw (shapeCast S16384x768 P shapeCasts_S16384x128x6_S16384x768) (shapeCast S16384x768 T shapeCasts_S16384x128x6_S16384x768)) i
      = Ideal.ofBits .f32 0x00000000#32 + Cert.Spec.rotSum P T := by
  rw [rotOf_apply]
  refine congrArg₂ (· + ·) rfl ?_
  simp only [blockSums_merged, Ideal.ofBits_zero_f32, zero_add]
  exact Cert.SumLaw.blocks_lanes_hi (fun b t d => Cert.Spec.sqw (P (ix3 b t d)) (T (ix3 b t d)))

end Cert.KernelIdeal.KernelSide

end
-- ==== Proof.KernelRun.lean ====
/-
  The kernel's run, with its three results named.

  The frame run leaves, in the three result buffers, the host lines after the region applied to the region's two output
  arrays. Those arrays are the block sums over the region's two inputs, the inputs are the arguments with their last
  two axes merged, and the lines' two totals are then the specification's two sums: so the three results are the total,
  the translation term and the rotation term of the specification, as functions of the two arguments.
-/
import proofs.«402585_j8753143349669_3_alg».proof.Proof.Gen.KernelIdeal.Frame
import proofs.«402585_j8753143349669_3_alg».proof.Proof.Tail
import proofs.«402585_j8753143349669_3_alg».proof.Proof.Arrays
import proofs.«402585_j8753143349669_3_alg».proof.Proof.KernelSide
import proofs.«402585_j8753143349669_3_alg».proof.Proof.Spec
import Idealize.ShloMosaic.Lib.StableHlo.Run

noncomputable section

namespace Cert.KernelIdeal.KernelRun

open Cert.KernelIdeal Cert.KernelIdeal.Gen Idealize.ShloMosaic Idealize.ShloMosaic.TcCoe Idealize.SL.Sem Idealize.ShloMosaic.StableHlo
open Idealize.ShloMosaic.Pipeline (Dat)
open Cert.KernelIdeal.Tail Cert.KernelIdeal.Arrays Cert.KernelIdeal.KernelSide

/-- The translation term of the loss, of two argument arrays. -/
def transLoss (P T : Cert.Spec.Arr) : (⟨S_, .f32⟩ : BufTy).Contents (Elt Ideal) :=
  lossT (fun _ => Ideal.ofBits .f32 0x00000000#32 + Cert.Spec.transSum P T)
/-- The rotation term of the loss. -/
def rotLoss (P T : Cert.Spec.Arr) : (⟨S_, .f32⟩ : BufTy).Contents (Elt Ideal) :=
  lossR (fun _ => Ideal.ofBits .f32 0x00000000#32 + Cert.Spec.rotSum P T)
/-- The total loss. -/
def totalLoss (P T : Cert.Spec.Arr) : (⟨S_, .f32⟩ : BufTy).Contents (Elt Ideal) :=
  addf (F := Ideal) (s := S_) (φ := .f32) (transLoss P T) (rotLoss P T)

variable (m : (ℓ : Loc nD τ sig) → Buf (Elt Ideal) ℓ) (ρ : Dev nD → PrngReg)

/-- The region's first input is the first argument with its last two axes merged. -/
theorem V_main_v0 (c : Dev nD) :
    V m c main_v0 = shapeCast S16384x768 (m ((c : Thread nD τ).loc main_arg0)) shapeCasts_S16384x128x6_S16384x768 := by
  show StableHlo.after hostOps0 (fun b => m (c, b)) (Proc.devRef .tc main_v0) = _
  after_results
  rfl

/-- The region's second input is the second argument with its last two axes merged. -/
theorem V_main_v1 (c : Dev nD) :
    V m c main_v1 = shapeCast S16384x768 (m ((c : Thread nD τ).loc main_arg1)) shapeCasts_S16384x128x6_S16384x768 := by
  show StableHlo.after hostOps0 (fun b => m (c, b)) (Proc.devRef .tc main_v1) = _
  after_results
  rfl

/-- The translation total the host lines take of the first output array is the specification's sum. -/
theorem trans_value (c : Dev nD) :
    transOf (F := Ideal) ((dats m 0 c).arrAt 2 cfg0.N)
      = fun _ => Ideal.ofBits .f32 0x00000000#32 + Cert.Spec.transSum (m ((c : Thread nD τ).loc main_arg0)) (m ((c : Thread nD τ).loc main_arg1)) := by
  rw [final2 m c, V_main_v0 m c, V_main_v1 m c]
  funext i
  exact kern_trans _ _ i

/-- The rotation total the host lines take of the second output array is the specification's sum. -/
theorem rot_value (c : Dev nD) :
    rotOf (F := Ideal) ((dats m 0 c).arrAt 3 cfg0.N)
      = fun _ => Ideal.ofBits .f32 0x00000000#32 + Cert.Spec.rotSum (m ((c : Thread nD τ).loc main_arg0)) (m ((c : Thread nD τ).loc main_arg1)) := by
  rw [final3 m c, V_main_v0 m c, V_main_v1 m c]
  funext i
  exact kern_rot _ _ i

/-- Every weakly fair execution of the kernel's program terminates with the three results at the specification's total,
    translation term and rotation term of the arguments, and the arguments unchanged. -/
theorem run : θ_run defs (onTc (τ := τ) (main (F := Ideal))) ⟨m, fun _ => 0, ρ⟩ fun r => ∀ c : Dev nD,
      r.2.mem ((c : Thread nD τ).loc main_v19) = totalLoss (m ((c : Thread nD τ).loc main_arg0)) (m ((c : Thread nD τ).loc main_arg1))
      ∧ r.2.mem ((c : Thread nD τ).loc main_v16) = transLoss (m ((c : Thread nD τ).loc main_arg0)) (m ((c : Thread nD τ).loc main_arg1))
      ∧ r.2.mem ((c : Thread nD τ).loc main_v18) = rotLoss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v19 (Pipeline.mem_restRefs_of main_v19 (by decide) (by decide))).trans
        ((tail_v19 m c).trans (by rw [trans_value m c, rot_value m c]; rfl)),
      ((h c).2 main_v16 (Pipeline.mem_restRefs_of main_v16 (by decide) (by decide))).trans
        ((tail_v16 m c).trans (by rw [trans_value m c]; rfl)),
      ((h c).2 main_v18 (Pipeline.mem_restRefs_of main_v18 (by decide) (by decide))).trans
        ((tail_v18 m c).trans (by rw [rot_value m c]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefSide.lean ====
/-
  The reference's two sums.

  The reference slices the translation channels (0, 1, 2) and the rotation channels (3, 4, 5) out of both arguments,
  squares the difference (of the wrapped angles, for the rotations) and sums over every (sample, step, channel) of the
  slice, starting from zero. Read coordinate by coordinate these are the specification's two sums.
-/
import proofs.«402585_j8753143349669_3_alg».proof.Proof.Gen.ReferenceIdeal.Read
import proofs.«402585_j8753143349669_3_alg».proof.Proof.Spec
import proofs.«402585_j8753143349669_3_alg».proof.Proof.SumLaw
import Idealize.ShloMosaic.Lib.ValueIdx
import Idealize.ShloMosaic.PureOps.Ideal.Laws

open scoped BigOperators

noncomputable section

namespace Cert.ReferenceIdeal.RefSide

open Cert.ReferenceIdeal Cert.ReferenceIdeal.Gen Cert.ReferenceIdeal.Read Idealize.ShloMosaic Idealize.ShloMosaic.ValueIdx

/-- The translation slice of the first argument reads channel `lo d`. -/
private theorem idx_v24 (b : Fin 16384) (t : Fin 128) (d : Fin 3) :
    idx_main_v24 (ix3 b t d) = ix3 b t (Cert.Spec.lo d) := by
  funext a
  match a with
  | ⟨0, _⟩ => rfl
  | ⟨1, _⟩ => rfl
  | ⟨2, _⟩ => rfl

/-- The translation slice of the second argument reads channel `lo d`. -/
private theorem idx_v25 (b : Fin 16384) (t : Fin 128) (d : Fin 3) :
    idx_main_v25 (ix3 b t d) = ix3 b t (Cert.Spec.lo d) := by
  funext a
  match a with
  | ⟨0, _⟩ => rfl
  | ⟨1, _⟩ => rfl
  | ⟨2, _⟩ => rfl

/-- The rotation slice of the first argument reads channel `hi d`. -/
private theorem idx_v0 (b : Fin 16384) (t : Fin 128) (d : Fin 3) :
    idx_main_v0 (ix3 b t d) = ix3 b t (Cert.Spec.hi d) := by
  funext a
  match a with
  | ⟨0, _⟩ => rfl
  | ⟨1, _⟩ => rfl
  | ⟨2, _⟩ => rfl

/-- The rotation slice of the second argument reads channel `hi d`. -/
private theorem idx_v12 (b : Fin 16384) (t : Fin 128) (d : Fin 3) :
    idx_main_v12 (ix3 b t d) = ix3 b t (Cert.Spec.hi d) := by
  funext a
  match a with
  | ⟨0, _⟩ => rfl
  | ⟨1, _⟩ => rfl
  | ⟨2, _⟩ => rfl

/-- One element of the squared translation difference. -/
private theorem v27_at (P T : Cert.Spec.Arr) (b : Fin 16384) (t : Fin 128) (d : Fin 3) :
    val_main_v27 (F := Ideal) P T (ix3 b t d)
      = Cert.Spec.sq (P (ix3 b t (Cert.Spec.lo d))) (T (ix3 b t (Cert.Spec.lo d))) := by
  rw [val_main_v27_apply, val_main_v26_apply, val_main_v24_apply, val_main_v25_apply, idx_v24, idx_v25]
  rfl

/-- The wrapped angle of the first argument. -/
private theorem v11_at (P : Cert.Spec.Arr) (b : Fin 16384) (t : Fin 128) (d : Fin 3) :
    val_main_v11 (F := Ideal) P (ix3 b t d) = Cert.Spec.wrap (P (ix3 b t (Cert.Spec.hi d))) := by
  rw [val_main_v11_apply, val_main_v2_apply, val_main_v4_apply, val_main_v10_apply, val_main_v7_apply,
    val_main_v9_apply, val_main_v1_apply, val_main_v3_apply, val_main_v6_apply, val_main_v8_apply,
    val_main_v5_apply, val_main_cst_apply, val_main_cst_0_apply, val_main_cst_1_apply, val_main_cst_2_apply,
    val_main_v0_apply, idx_v0]
  rfl

/-- The wrapped angle of the second argument. -/
private theorem v23_at (T : Cert.Spec.Arr) (b : Fin 16384) (t : Fin 128) (d : Fin 3) :
    val_main_v23 (F := Ideal) T (ix3 b t d) = Cert.Spec.wrap (T (ix3 b t (Cert.Spec.hi d))) := by
  rw [val_main_v23_apply, val_main_v14_apply, val_main_v16_apply, val_main_v22_apply, val_main_v19_apply,
    val_main_v21_apply, val_main_v13_apply, val_main_v15_apply, val_main_v18_apply, val_main_v20_apply,
    val_main_v17_apply, val_main_cst_3_apply, val_main_cst_4_apply, val_main_cst_5_apply, val_main_cst_6_apply,
    val_main_v12_apply, idx_v12]
  rfl

/-- One element of the squared difference of the wrapped angles. -/
private theorem v32_at (P T : Cert.Spec.Arr) (b : Fin 16384) (t : Fin 128) (d : Fin 3) :
    val_main_v32 (F := Ideal) P T (ix3 b t d)
      = Cert.Spec.sqw (P (ix3 b t (Cert.Spec.hi d))) (T (ix3 b t (Cert.Spec.hi d))) := by
  rw [val_main_v32_apply, val_main_v31_apply, v11_at, v23_at]
  rfl

/-- The reference's translation sum is the specification's, added to its initial value. -/
theorem ref_trans (P T : Cert.Spec.Arr) (i : S_.Idx) :
    val_main_v28 (F := Ideal) P T i = Ideal.ofBits .f32 0x00000000#32 + Cert.Spec.transSum P T := by
  rw [val_main_v28_apply]
  refine congrArg₂ (· + ·) rfl ?_
  refine (Cert.SumLaw.sum_idx3 _).trans ?_
  exact Finset.sum_congr rfl fun b _ => Finset.sum_congr rfl fun t _ => Finset.sum_congr rfl fun d _ =>
    v27_at P T b t d

/-- The reference's rotation sum is the specification's, added to its initial value. -/
theorem ref_rot (P T : Cert.Spec.Arr) (i : S_.Idx) :
    val_main_v33 (F := Ideal) P T i = Ideal.ofBits .f32 0x00000000#32 + Cert.Spec.rotSum P T := by
  rw [val_main_v33_apply]
  refine congrArg₂ (· + ·) rfl ?_
  refine (Cert.SumLaw.sum_idx3 _).trans ?_
  exact Finset.sum_congr rfl fun b _ => Finset.sum_congr rfl fun t _ => Finset.sum_congr rfl fun d _ =>
    v32_at P T b t d

end Cert.ReferenceIdeal.RefSide

end
-- ==== Proof.RefRun.lean ====
/-
  The reference's run, with its three results named by the specification.

  The reference divides each of its two sums by the number of summands and scales it by its weight, and returns the sum
  of the two terms first: the same closing arithmetic as the kernel's host lines, applied to the same two sums.
-/
import proofs.«402585_j8753143349669_3_alg».proof.Proof.Gen.ReferenceIdeal.Run
import proofs.«402585_j8753143349669_3_alg».proof.Proof.Gen.ReferenceIdeal.Read
import proofs.«402585_j8753143349669_3_alg».proof.Proof.RefSide
import proofs.«402585_j8753143349669_3_alg».proof.Proof.KernelRun
import proofs.«402585_j8753143349669_3_alg».proof.Proof.Spec

noncomputable section

namespace Cert.ReferenceIdeal.RefRun

open Cert.ReferenceIdeal Cert.ReferenceIdeal.Gen Cert.ReferenceIdeal.Read Idealize.ShloMosaic Idealize.ShloMosaic.TcCoe Idealize.SL.Sem
open Cert.ReferenceIdeal.RefSide
open Cert.KernelIdeal.KernelRun (transLoss rotLoss totalLoss)

/-- The reference's translation term. -/
theorem v30_value (P T : Cert.Spec.Arr) : val_main_v30 (F := Ideal) P T = transLoss P T := by
  have e : val_main_v28 (F := Ideal) P T = fun _ => Ideal.ofBits .f32 0x00000000#32 + Cert.Spec.transSum P T :=
    funext (ref_trans P T)
  show Cert.KernelIdeal.Tail.lossT (val_main_v28 (F := Ideal) P T) = _
  rw [e]
  rfl

/-- The reference's rotation term. -/
theorem v35_value (P T : Cert.Spec.Arr) : val_main_v35 (F := Ideal) P T = rotLoss P T := by
  have e : val_main_v33 (F := Ideal) P T = fun _ => Ideal.ofBits .f32 0x00000000#32 + Cert.Spec.rotSum P T :=
    funext (ref_rot P T)
  show Cert.KernelIdeal.Tail.lossR (val_main_v33 (F := Ideal) P T) = _
  rw [e]
  rfl

/-- The reference's total. -/
theorem v36_value (P T : Cert.Spec.Arr) : val_main_v36 (F := Ideal) P T = totalLoss P T := by
  unfold val_main_v36
  rw [v30_value, v35_value]
  rfl

variable (m : (ℓ : Loc nD τ sig) → Buf (Elt Ideal) ℓ) (ρ : Dev nD → PrngReg)

/-- Every weakly fair execution of the reference terminates with the three results at the specification's total,
    translation term and rotation term of the arguments, and the arguments unchanged. -/
theorem run : θ_run defs (onTc (τ := τ) (main (F := Ideal))) ⟨m, fun _ => 0, ρ⟩ fun r => ∀ c : Dev nD,
      r.2.mem ((c.tc : Thread nD τ).loc main_v36) = totalLoss (m ((c.tc : Thread nD τ).loc main_arg0)) (m ((c.tc : Thread nD τ).loc main_arg1))
      ∧ r.2.mem ((c.tc : Thread nD τ).loc main_v30) = transLoss (m ((c.tc : Thread nD τ).loc main_arg0)) (m ((c.tc : Thread nD τ).loc main_arg1))
      ∧ r.2.mem ((c.tc : Thread nD τ).loc main_v35) = rotLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans ((val_main_v36_eq m c).trans (v36_value _ _)),
      (h c).2.1.trans ((val_main_v30_eq _ _).trans (v30_value _ _)),
      (h c).2.2.1.trans ((val_main_v35_eq m c).trans (v35_value _ _)),
      (h c).2.2.2.1, (h c).2.2.2.2⟩)
    (Cert.ReferenceIdeal.Value.run (F := Ideal) m ρ)

end Cert.ReferenceIdeal.RefRun

end
-- ==== Proof.lean ====
/-
  A weighted squared-error loss over (sample, step, channel) arrays: translation channels compared as they are, rotation
  channels after one wrap of each angle towards (-π, π]. The kernel computes it block by block over a lane-dense layout
  (16 blocks of 1024 samples, 768 = 128 · 6 lanes), keeping per-lane partial sums and separating the two kinds of channel
  on the host by the lane number mod 6; the reference slices the channels apart and sums each slice whole. Over the
  extended reals both are the same two finite sums taken in different orders, followed by the same division and
  weights, so the three results agree; addition alone is re-ordered, and no finiteness of the inputs is used.
  The frames of the two kernel programs are the generated ones; the reference's is its generated run.
-/
import proofs.«402585_j8753143349669_3_alg».proof.Defs
import proofs.«402585_j8753143349669_3_alg».proof.Proof.Gen.Kernel
import proofs.«402585_j8753143349669_3_alg».proof.Proof.Gen.Kernel.Skeleton
import proofs.«402585_j8753143349669_3_alg».proof.Proof.Gen.Kernel.Launch
import proofs.«402585_j8753143349669_3_alg».proof.Proof.Gen.Kernel.Points
import proofs.«402585_j8753143349669_3_alg».proof.Proof.Gen.Kernel.Frame
import proofs.«402585_j8753143349669_3_alg».proof.Proof.Gen.KernelIdeal
import proofs.«402585_j8753143349669_3_alg».proof.Proof.Gen.KernelIdeal.Skeleton
import proofs.«402585_j8753143349669_3_alg».proof.Proof.Gen.KernelIdeal.Launch
import proofs.«402585_j8753143349669_3_alg».proof.Proof.Gen.KernelIdeal.Points
import proofs.«402585_j8753143349669_3_alg».proof.Proof.Gen.KernelIdeal.Frame
import proofs.«402585_j8753143349669_3_alg».proof.Proof.Gen.ReferenceIdeal
import proofs.«402585_j8753143349669_3_alg».proof.Proof.Gen.Pre_finite_inputs
import proofs.«402585_j8753143349669_3_alg».proof.Proof.Gen.ReferenceIdeal.Run
import proofs.«402585_j8753143349669_3_alg».proof.Proof.Gen.ReferenceIdeal.Read
import proofs.«402585_j8753143349669_3_alg».proof.Proof.KernelRun
import proofs.«402585_j8753143349669_3_alg».proof.Proof.RefRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, both programs end at the specification's total, translation term and rotation term. -/
theorem algebraic : Cert.algebraic_KernelIdeal_ReferenceIdeal := by
  intro m ρ m' ρ' _ hagree
  refine ⟨_, _, _, Cert.KernelIdeal.KernelRun.run m ρ, ?_⟩
  refine (θ_run Cert.ReferenceIdeal.defs _ _).mono (fun _ h c => ?_) (Cert.ReferenceIdeal.RefRun.run m' ρ')
  obtain ⟨h0, h1, h2, h3, h4⟩ := h c
  rw [(hagree c).1, (hagree c).2] at h0 h1 h2
  exact ⟨h0, h1, h2, h3, h4⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
